-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.sign_bit.Statement Cert.KernelIdeal.S128x128 .f32
  ∧ IdealRules.sign_bit.Statement Cert.KernelIdeal.S128x128 .f32
  ∧ IdealRules.sign_bit.Statement Cert.KernelIdeal.S128x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x3 : Shape := ⟨2, ![512, 3]⟩
abbrev S4x512x3 : Shape := ⟨3, ![4, 512, 3]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S_ : Shape := ⟨0, ![]⟩

class Facts : Prop where
  bcast_S_S512x3 : S_.BroadcastsInDim S512x3 (![] : Fin 0 → Fin S512x3.rank)
  reducesTo_S512x3_S_d0_1 : S512x3.ReducesTo [0, 1] S_
  h_S_ : 0 < S_.numel
  bcast_S_S4x512x3 : S_.BroadcastsInDim S4x512x3 (![] : Fin 0 → Fin S4x512x3.rank)
  reducesTo_S4x512x3_S_d0_1_2 : S4x512x3.ReducesTo [0, 1, 2] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x4 .f32) (main_arg7 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x4 .f32 := Host.absf main_arg6
  let main_cst_10 : FVec F S_ .f32 := constant S_ .f32 0x7F800000#32
  let main_v30 : FVec F S128x4 .f32 := broadcastInDim S128x4 ![] bcast_S_S128x4 main_cst_10
  let main_v31 : IVec S128x4 1 := cmpf .olt main_v29 main_v30
  let main_c_11 : IVec S_ 1 := constantI S_ 1 1#1
  let main_v32 : IVec S_ 1 := (fun x v => Host.reduce IntOp.andi x v reducesTo_S128x4_S_d0_1 h_S_) main_v31 main_c_11
  let main_v33 : IVec S_ 1 := andi main_v28 main_v32
  fn_part2 (F := F) main_arg7 main_v33

def fn {F : FTy → Type} [FloatOps F] (main_arg0 : FVec F S512x3 .f32) (main_arg1 : FVec F S4x512x3 .f32) (main_arg2 : FVec F S3x128 .f32) (main_arg3 : FVec F S128 .f32) (main_arg4 : FVec F S128x128 .f32) (main_arg5 : FVec F S128 .f32) (main_arg6 : FVec F S128x4 .f32) (main_arg7 : FVec F S4 .f32) : IVec S_ 1 :=
  let main_v0 : FVec F S512x3 .f32 := Host.absf main_arg0
  let main_cst : FVec F S_ .f32 := constant S_ .f32 0x7F800000#32
  let main_v1 : FVec F S512x3 .f32 := broadcastInDim S512x3 ![] bcast_S_S512x3 main_cst
  let main_v2 : IVec S512x3 1 := cmpf .olt main_v0 main_v1
  let main_c : IVec S_ 1 := constantI S_ 1 1#1
  let main_v3 : IVec S_ 1 := (fun x v => Host.reduce IntOp.andi x v reducesTo_S512x3_S_d0_1 h_S_) main_v2 main_c
  let main_v4 : FVec F S4x512x3 .f32 := Host.absf main_arg1
  let main_cst_0 : FVec F S_ .f32 := constant S_ .f32 0x7F800000#32
  let main_v5 : FVec F S4x512x3 .f32 := broadcastInDim S4x512x3 ![] bcast_S_S4x512x3 main_cst_0
  let main_v6 : IVec S4x512x3 1 := cmpf .olt main_v4 main_v5
  let main_c_1 : IVec S_ 1 := constantI S_ 1 1#1
  let main_v7 : IVec S_ 1 := (fun x v => Host.reduce IntOp.andi x v reducesTo_S4x512x3_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S512x3 : Shape := ⟨2, ![512, 3]⟩
abbrev S4x512x3 : Shape := ⟨3, ![4, 512, 3]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S16x512x512 : Shape := ⟨3, ![16, 512, 512]⟩
abbrev S128x3 : Shape := ⟨2, ![128, 3]⟩
abbrev S1x128x3 : Shape := ⟨3, ![1, 128, 3]⟩
abbrev S4x128x128 : Shape := ⟨3, ![4, 128, 128]⟩
abbrev S128x1 : Shape := ⟨2, ![128, 1]⟩
abbrev S1x128 : Shape := ⟨2, ![1, 128]⟩
abbrev S1x128x128 : Shape := ⟨3, ![1, 128, 128]⟩
abbrev S3x128x128 : Shape := ⟨3, ![3, 128, 128]⟩
abbrev S3x16384 : Shape := ⟨2, ![3, 16384]⟩
abbrev S16384x128 : Shape := ⟨2, ![16384, 128]⟩
abbrev S4x16384 : Shape := ⟨2, ![4, 16384]⟩
abbrev S4x1 : Shape := ⟨2, ![4, 1]⟩
abbrev S1x16x512x512 : Shape := ⟨4, ![1, 16, 512, 512]⟩

abbrev nBuf : Space → Nat
  | .hbm => 10
  | .vmem => 12
  | .smem => 0
  | _ => 0

abbrev bufTy : (tb : Table) → Fin (tcTables nBuf tb) → BufTy
  | .hbm, ⟨0, _⟩ => ⟨S512x3, .f32⟩
  | .hbm, ⟨1, _⟩ => ⟨S4x512x3, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S16x512x512, .f32⟩
  | .hbm, ⟨9, _⟩ => ⟨S1x16x512x512, .f32⟩
  | .local _ .vmem, ⟨0, _⟩ => ⟨S128x3, .f32⟩
  | .local _ .vmem, ⟨1, _⟩ => ⟨S128x3, .f32⟩
  | .local _ .vmem, ⟨2, _⟩ => ⟨S1x128x3, .f32⟩
  | .local _ .vmem, ⟨3, _⟩ => ⟨S1x128x3, .f32⟩
  | .local _ .vmem, ⟨4, _⟩ => ⟨S3x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x4, .f32⟩
  | .local _ .vmem, ⟨9, _⟩ => ⟨S4, .f32⟩
  | .local _ .vmem, ⟨10, _⟩ => ⟨S4x128x128, .f32⟩
  | .local _ .vmem, ⟨11, _⟩ => ⟨S4x128x128, .f32⟩
  | _, _ => ⟨S512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [BitOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  inb_S128x3_S128x3_0_0 : ∀ a, (![0, 0] : Fin 2 → Nat) a + S128x3.size a ≤ S128x3.size a
  h_S128x3 : 0 < S128x3.numel
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  transposes_S128x3_p1_0_S3x128 : S128x3.Transposes [1, 0] S3x128
  slices_S128x3_o0_0_S128x1 : S128x3.Slices ![0, 0] S128x1
  slices_S3x128_o0_0_S1x128 : S3x128.Slices ![0, 0] S1x128
  broadcasts_S128x1_S128x128 : S128x1.Broadcasts S128x128
  broadcasts_S1x128_S128x128 : S1x128.Broadcasts S128x128
  slices_S128x3_o0_1_S128x1 : S128x3.Slices ![0, 1] S128x1
  slices_S3x128_o1_0_S1x128 : S3x128.Slices ![1, 0] S1x128
  slices_S128x3_o0_2_S128x1 : S128x3.Slices ![0, 2] S128x1
  slices_S3x128_o2_0_S1x128 : S3x128.Slices ![2, 0] S1x128
  shapeCasts_S128x128_S1x128x128 : S128x128.ShapeCasts S1x128x128
  concatenates_S1x128x128_S1x128x128_S1x128x128_S3x128x128_d0 : Shape.Concatenates [S1x128x128, S1x128x128, S1x128x128] S3x128x128 0
  shapeCasts_S3x128x128_S3x16384 : S3x128x128.ShapeCasts S3x16384
  inb_S3x128_S3x128_0_0 : ∀ a, (![0, 0] : Fin 2 → Nat) a + S3x128.size a ≤ S3x128.size a
  h_S3x128 : 0 < S3x128.numel
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  inb_S128x128_S128x128_0_0 : ∀ a, (![0, 0] : Fin 2 → Nat) a + S128x128.size a ≤ S128x128.size a
  h_S128x128 : 0 < S128x128.numel
  inb_S128x4_S128x4_0_0 : ∀ a, (![0, 0] : Fin 2 → Nat) a + S128x4.size a ≤ S128x4.size a
  h_S128x4 : 0 < S128x4.numel
  inb_S4_S4_0 : ∀ a, (![0] : Fin 1 → Nat) a + S4.size a ≤ S4.size a
  h_S4 : 0 < S4.numel
  shapeCasts_S4_S4x1 : S4.ShapeCasts S4x1
  broadcasts_S4x1_S4x16384 : S4x1.Broadcasts S4x16384
  shapeCasts_S4x16384_S4x128x128 : S4x16384.ShapeCasts S4x128x128
  inb_S4x128x128_S4x128x128_0_0_0 : ∀ a, (![0, 0, 0] : Fin 3 → Nat) a + S4x128x128.size a ≤ S4x128x128.size a
  h_S4x128x128 : 0 < S4x128x128.numel
  shapeCasts_S16x512x512_S1x16x512x512 : S16x512x512.ShapeCasts S1x16x512x512
  dot_S3x16384_S3x128_S16384x128_0_0_1_1_n_n_wf : DotDims.WF S3x16384 S3x128 S16384x128 [0] [0] [1] [1] [] []
  dot_S16384x128_S128x128_S16384x128_1_0_0_1_n_n_wf : DotDims.WF S16384x128 S128x128 S16384x128 [1] [0] [0] [1] [] []
  dot_S128x4_S16384x128_S4x16384_0_1_1_0_n_n_wf : DotDims.WF S128x4 S16384x128 S4x16384 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S512x3.size a
  hwx0_0 : ∀ i : grid0.Coords, EltTy.bits .f32 = 32 ∨ (Rect.block (s := S512x3) S128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3.size a ≤ S4x512x3.size a
  hwx0_1 : ∀ i : grid0.Coords, EltTy.bits .f32 = 32 ∨ (Rect.block (s := S4x512x3) S1x128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4.size a ≤ S128x4.size a
  hwx0_6 : ∀ i : grid0.Coords, EltTy.bits .f32 = 32 ∨ (Rect.block (s := S128x4) S128x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4.size a ≤ S4.size a
  hwx0_7 : ∀ i : grid0.Coords, EltTy.bits .f32 = 32 ∨ (Rect.block (s := S4) S4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x128x128.size a ≤ S16x512x512.size a
  hwx0_8 : ∀ i : grid0.Coords, EltTy.bits .f32 = 32 ∨ (Rect.block (s := S16x512x512) S4x128x128.size (cc0_transform_8 i) (hinb0_8 i)).WholeWords (EltTy.packing .f32)

variable [Facts₀]

def dot_S3x16384_S3x128_S16384x128_0_0_1_1_n_n : DotDims S3x16384 S3x128 S16384x128 where
  lhsContracting := [0]
  rhsContracting := [0]
  lhsNonContracting := [1]
  rhsNonContracting := [1]
  lhsBatch := []
  rhsBatch := []
  wf := dot_S3x16384_S3x128_S16384x128_0_0_1_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S128x4_S16384x128_S4x16384_0_1_1_0_n_n : DotDims S128x4 S16384x128 S4x16384 where
  lhsContracting := [0]
  rhsContracting := [1]
  lhsNonContracting := [1]
  rhsNonContracting := [0]
  lhsBatch := []
  rhsBatch := []
  wf := dot_S128x4_S16384x128_S4x16384_0_1_1_0_n_n_wf

abbrev win0_0 : Pipeline.Window sig grid0 :=
  Pipeline.Window.ofSpec (Memref.whole main_arg0) S128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x3 : Shape := ⟨2, ![512, 3]⟩
abbrev S4x512x3 : Shape := ⟨3, ![4, 512, 3]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x512x3 : Shape := ⟨3, ![1, 512, 3]⟩
abbrev S1x512x1x3 : Shape := ⟨4, ![1, 512, 1, 3]⟩
abbrev S4x1x512x3 : Shape := ⟨4, ![4, 1, 512, 3]⟩
abbrev S4x512x512x3 : Shape := ⟨4, ![4, 512, 512, 3]⟩
abbrev S4x512x512x128 : Shape := ⟨4, ![4, 512, 512, 128]⟩
abbrev S1x1x1x128 : Shape := ⟨4, ![1, 1, 1, 128]⟩
abbrev S_ : Shape := ⟨0, ![]⟩
abbrev S4x512x512x4 : Shape := ⟨4, ![4, 512, 512, 4]⟩
abbrev S1x1x1x4 : Shape := ⟨4, ![1, 1, 1, 4]⟩
abbrev S1x4x512x512x4 : Shape := ⟨5, ![1, 4, 512, 512, 4]⟩
abbrev S1x4x4x512x512 : Shape := ⟨5, ![1, 4, 4, 512, 512]⟩
abbrev S1x16x512x512 : Shape := ⟨4, ![1, 16, 512, 512]⟩

abbrev nBuf : Space → Nat
  | .hbm => 39
  | .vmem => 0
  | .smem => 0
  | _ => 0

abbrev bufTy : (tb : Table) → Fin (tcTables nBuf tb) → BufTy
  | .hbm, ⟨0, _⟩ => ⟨S512x3, .f32⟩
  | .hbm, ⟨1, _⟩ => ⟨S4x512x3, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S1x512x3, .f32⟩
  | .hbm, ⟨9, _⟩ => ⟨S1x512x1x3, .f32⟩
  | .hbm, ⟨10, _⟩ => ⟨S4x1x512x3, .f32⟩
  | .hbm, ⟨11, _⟩ => ⟨S4x512x512x3, .f32⟩
  | .hbm, ⟨12, _⟩ => ⟨S4x512x512x3, .f32⟩
  | .hbm, ⟨13, _⟩ => ⟨S4x512x512x3, .f32⟩
  | .hbm, ⟨14, _⟩ => ⟨S4x512x512x3, .f32⟩
  | .hbm, ⟨15, _⟩ => ⟨S4x512x512x3, .f32⟩
  | .hbm, ⟨16, _⟩ => ⟨S4x512x512x3, .f32⟩
  | .hbm, ⟨17, _⟩ => ⟨S4x512x512x3, .f32⟩
  | .hbm, ⟨18, _⟩ => ⟨S4x512x512x128, .f32⟩
  | .hbm, ⟨19, _⟩ => ⟨S1x1x1x128, .f32⟩
  | .hbm, ⟨20, _⟩ => ⟨S4x512x512x128, .f32⟩
  | .hbm, ⟨21, _⟩ => ⟨S4x512x512x128, .f32⟩
  | .hbm, ⟨22, _⟩ => ⟨S_, .f32⟩
  | .hbm, ⟨23, _⟩ => ⟨S4x512x512x128, .f32⟩
  | .hbm, ⟨24, _⟩ => ⟨S4x512x512x128, .f32⟩
  | .hbm, ⟨25, _⟩ => ⟨S4x512x512x128, .f32⟩
  | .hbm, ⟨26, _⟩ => ⟨S1x1x1x128, .f32⟩
  | .hbm, ⟨27, _⟩ => ⟨S4x512x512x128, .f32⟩
  | .hbm, ⟨28, _⟩ => ⟨S4x512x512x128, .f32⟩
  | .hbm, ⟨29, _⟩ => ⟨S_, .f32⟩
  | .hbm, ⟨30, _⟩ => ⟨S4x512x512x128, .f32⟩
  | .hbm, ⟨31, _⟩ => ⟨S4x512x512x128, .f32⟩
  | .hbm, ⟨32, _⟩ => ⟨S4x512x512x4, .f32⟩
  | .hbm, ⟨33, _⟩ => ⟨S1x1x1x4, .f32⟩
  | .hbm, ⟨34, _⟩ => ⟨S4x512x512x4, .f32⟩
  | .hbm, ⟨35, _⟩ => ⟨S4x512x512x4, .f32⟩
  | .hbm, ⟨36, _⟩ => ⟨S1x4x512x512x4, .f32⟩
  | .hbm, ⟨37, _⟩ => ⟨S1x4x4x512x512, .f32⟩
  | .hbm, ⟨38, _⟩ => ⟨S1x16x512x512, .f32⟩
  | _, _ => ⟨S512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_cst : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S512x3_S1x512x3_1_2 : S512x3.BroadcastsInDim S1x512x3 (![1, 2] : Fin 2 → Fin S1x512x3.rank)
  bcast_S1x512x3_S1x512x1x3_0_1_3 : S1x512x3.BroadcastsInDim S1x512x1x3 (![0, 1, 3] : Fin 3 → Fin S1x512x1x3.rank)
  bcast_S4x512x3_S4x1x512x3_0_2_3 : S4x512x3.BroadcastsInDim S4x1x512x3 (![0, 2, 3] : Fin 3 → Fin S4x1x512x3.rank)
  bcast_S1x512x1x3_S4x512x512x3_0_1_2_3 : S1x512x1x3.BroadcastsInDim S4x512x512x3 (![0, 1, 2, 3] : Fin 4 → Fin S4x512x512x3.rank)
  bcast_S4x1x512x3_S4x512x512x3_0_1_2_3 : S4x1x512x3.BroadcastsInDim S4x512x512x3 (![0, 1, 2, 3] : Fin 4 → Fin S4x512x512x3.rank)
  bcast_S128_S1x1x1x128_3 : S128.BroadcastsInDim S1x1x1x128 (![3] : Fin 1 → Fin S1x1x1x128.rank)
  bcast_S1x1x1x128_S4x512x512x128_0_1_2_3 : S1x1x1x128.BroadcastsInDim S4x512x512x128 (![0, 1, 2, 3] : Fin 4 → Fin S4x512x512x128.rank)
  bcast_S_S4x512x512x128 : S_.BroadcastsInDim S4x512x512x128 (![] : Fin 0 → Fin S4x512x512x128.rank)
  bcast_S4_S1x1x1x4_3 : S4.BroadcastsInDim S1x1x1x4 (![3] : Fin 1 → Fin S1x1x1x4.rank)
  bcast_S1x1x1x4_S4x512x512x4_0_1_2_3 : S1x1x1x4.BroadcastsInDim S4x512x512x4 (![0, 1, 2, 3] : Fin 4 → Fin S4x512x512x4.rank)
  shapeCasts_S4x512x512x4_S1x4x512x512x4 : S4x512x512x4.ShapeCasts S1x4x512x512x4
  transposes_S1x4x512x512x4_S1x4x4x512x512_0_1_4_2_3 : S1x4x512x512x4.Transposes [0, 1, 4, 2, 3] S1x4x4x512x512
  shapeCasts_S1x4x4x512x512_S1x16x512x512 : S1x4x4x512x512.ShapeCasts S1x16x512x512
  dot_S4x512x512x3_S3x128_S4x512x512x128_3_0_012_1_n_n_wf : DotDims.WF S4x512x512x3 S3x128 S4x512x512x128 [3] [0] [0, 1, 2] [1] [] []
  dot_S4x512x512x128_S128x128_S4x512x512x128_3_0_012_1_n_n_wf : DotDims.WF S4x512x512x128 S128x128 S4x512x512x128 [3] [0] [0, 1, 2] [1] [] []
  dot_S4x512x512x128_S128x4_S4x512x512x4_3_0_012_1_n_n_wf : DotDims.WF S4x512x512x128 S128x4 S4x512x512x4 [3] [0] [0, 1, 2] [1] [] []

variable [Facts₀]

def dot_S4x512x512x3_S3x128_S4x512x512x128_3_0_012_1_n_n : DotDims S4x512x512x3 S3x128 S4x512x512x128 where
  lhsContracting := [3]
  rhsContracting := [0]
  lhsNonContracting := [0, 1, 2]
  rhsNonContracting := [1]
  lhsBatch := []
  rhsBatch := []
  wf := dot_S4x512x512x3_S3x128_S4x512x512x128_3_0_012_1_n_n_wf
def dot_S4x512x512x128_S128x128_S4x512x512x128_3_0_012_1_n_n : DotDims S4x512x512x128 S128x128 S4x512x512x128 where
  lhsContracting := [3]
  rhsContracting := [0]
  lhsNonContracting := [0, 1, 2]
  rhsNonContracting := [1]
  lhsBatch := []
  rhsBatch := []
  wf := dot_S4x512x512x128_S128x128_S4x512x512x128_3_0_012_1_n_n_wf
def dot_S4x512x512x128_S128x4_S4x512x512x4_3_0_012_1_n_n : DotDims S4x512x512x128 S128x4 S4x512x512x4 where
  lhsContracting := [3]
  rhsContracting := [0]
  lhsNonContracting := [0, 1, 2]
  rhsNonContracting := [1]
  lhsBatch := []
  rhsBatch := []
  wf := dot_S4x512x512x128_S128x4_S4x512x512x4_3_0_012_1_n_n_wf

class Facts : Prop extends Facts₀ where

variable [Facts]
-- ==== Proof.PairBias.lean ====
/-
  The function both programs compute, stated once over the extended reals.

  For a query point and a key point with three coordinates each, the feature of coordinate c is the sign-log
  transform of the coordinate difference, sign d · log (1 + |d|) with |d| written max d (−d).  The three features go
  through a perceptron of widths 3 → 128 → 128 → 4: a layer is a sum of products plus a bias, the first two followed
  by the rectifier max · 0.  Only sums and products of extended reals are used, in one fixed arrangement, so nothing
  here needs the inputs to be finite.
-/
import Idealize.ShloMosaic.PureOps.Ideal
import Idealize.ShloMosaic.Lib.ValueIdx

noncomputable section

namespace Cert.PairBias

open Idealize.ShloMosaic Idealize.ShloMosaic.ValueIdx

/-- The zero the rectifier compares with, as the single-precision word both programs write. -/
abbrev zero32 : EReal := Ideal.ofBits .f32 0x00000000#32

/-- The sign-log transform of a coordinate difference `d`: sign d · log (1 + |d|). -/
def slog (d : EReal) : EReal := Ideal.sign d * Ideal.log1p (max d (-d))

/-- First layer at hidden unit `d`: rectified sum over the three features. -/
def layer1 (f : Fin 3 → EReal) (W1 : Fin 3 → Fin 128 → EReal) (b1 : Fin 128 → EReal) (d : Fin 128) : EReal :=
  max ((∑ c : Fin 3, f c * W1 c d) + b1 d) zero32

/-- Second layer at hidden unit `e`: rectified sum over the 128 units of the first. -/
def layer2 (h : Fin 128 → EReal) (W2 : Fin 128 → Fin 128 → EReal) (b2 : Fin 128 → EReal) (e : Fin 128) : EReal :=
  max ((∑ d : Fin 128, h d * W2 d e) + b2 e) zero32

/-- Output layer at channel `o`: sum over the 128 units of the second layer, plus the bias, no rectifier. -/
def layer3 (h : Fin 128 → EReal) (W3 : Fin 128 → Fin 4 → EReal) (b3 : Fin 4 → EReal) (o : Fin 4) : EReal :=
  (∑ e : Fin 128, h e * W3 e o) + b3 o

/-- The bias of one (query, key) pair at output channel `o`. -/
def pair (q kv : Fin 3 → EReal) (W1 : Fin 3 → Fin 128 → EReal) (b1 : Fin 128 → EReal)
    (W2 : Fin 128 → Fin 128 → EReal) (b2 : Fin 128 → EReal) (W3 : Fin 128 → Fin 4 → EReal) (b3 : Fin 4 → EReal)
    (o : Fin 4) : EReal :=
  layer3 (layer2 (layer1 (fun c => slog (q c - kv c)) W1 b1) W2 b2) W3 b3 o

/-- The whole result as one function of the eight argument arrays: entry (g·4 + o, i, j) is the bias of query point
    `i` and key point `j` of group `g` at channel `o`. -/
def table (gq : (⟨2, ![512, 3]⟩ : Shape).Idx → EReal) (gkv : (⟨3, ![4, 512, 3]⟩ : Shape).Idx → EReal)
    (w1 : (⟨2, ![3, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (w3 : (⟨2, ![128, 4]⟩ : Shape).Idx → EReal) (b3 : (⟨1, ![4]⟩ : Shape).Idx → EReal)
    (ch : Fin 16) (i : Fin 512) (j : Fin 512) : EReal :=
  pair (fun c => gq (ix2 i c)) (fun c => gkv (ix3 (⟨ch.val / 4, by have := ch.isLt; omega⟩ : Fin 4) j c))
    (fun c d => w1 (ix2 c d)) (fun d => b1 (ix1 d)) (fun d e => w2 (ix2 d e)) (fun e => b2 (ix1 e))
    (fun e o => w3 (ix2 e o)) (fun o => b3 (ix1 o)) (⟨ch.val % 4, Nat.mod_lt _ (by decide)⟩ : Fin 4)

/-- The result as the four-axis array both programs return: a leading axis of extent one over `table`. -/
def tableArr (gq : (⟨2, ![512, 3]⟩ : Shape).Idx → EReal) (gkv : (⟨3, ![4, 512, 3]⟩ : Shape).Idx → EReal)
    (w1 : (⟨2, ![3, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (w3 : (⟨2, ![128, 4]⟩ : Shape).Idx → EReal) (b3 : (⟨1, ![4]⟩ : Shape).Idx → EReal) :
    (⟨4, ![1, 16, 512, 512]⟩ : Shape).Idx → EReal :=
  fun i => table gq gkv w1 b1 w2 b2 w3 b3 (i 1) (i 2) (i 3)

/-- `pair` takes equal values at pointwise equal arguments. -/
theorem pair_congr {q q' kv kv' : Fin 3 → EReal} {W1 W1' : Fin 3 → Fin 128 → EReal} {b1 b1' : Fin 128 → EReal}
    {W2 W2' : Fin 128 → Fin 128 → EReal} {b2 b2' : Fin 128 → EReal} {W3 W3' : Fin 128 → Fin 4 → EReal}
    {b3 b3' : Fin 4 → EReal} {o o' : Fin 4}
    (hq : ∀ c, q c = q' c) (hkv : ∀ c, kv c = kv' c) (hW1 : ∀ c d, W1 c d = W1' c d) (hb1 : ∀ d, b1 d = b1' d)
    (hW2 : ∀ d e, W2 d e = W2' d e) (hb2 : ∀ e, b2 e = b2' e) (hW3 : ∀ e o, W3 e o = W3' e o) (hb3 : ∀ o, b3 o = b3' o)
    (ho : o = o') :
    pair q kv W1 b1 W2 b2 W3 b3 o = pair q' kv' W1' b1' W2' b2' W3' b3' o' := by
  obtain rfl : q = q' := funext hq
  obtain rfl : kv = kv' := funext hkv
  obtain rfl : W1 = W1' := funext fun c => funext (hW1 c)
  obtain rfl : b1 = b1' := funext hb1
  obtain rfl : W2 = W2' := funext fun d => funext (hW2 d)
  obtain rfl : b2 = b2' := funext hb2
  obtain rfl : W3 = W3' := funext fun e => funext (hW3 e)
  obtain rfl : b3 = b3' := funext hb3
  rw [ho]

end Cert.PairBias

end
-- ==== Proof.Planes.lean ====
/-
  The three feature planes of one (query block, key block) pair, read at an entry.

  The body holds a block of 128 query points (128 × 3) and a block of 128 key points (1 × 128 × 3).  It transposes the
  key block to 3 × 128, and for each coordinate c forms the 128 × 128 plane of differences
  query[p, c] − key[q, c] by broadcasting a column against a row, then the sign-log transform of the plane.  Read at
  entry (p, q), plane c is the sign-log transform of the difference of coordinate c of query point p and key point q.
-/
import proofs.«400946_j78993038508266_3_alg».proof.Proof.Gen.KernelIdeal.Skeleton
import proofs.«400946_j78993038508266_3_alg».proof.Proof.PairBias
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.PairBias

/-- The transposed key block: entry (c, q) is coordinate `c` of key point `q`. -/
theorem keysT_apply (x1 : Vec Ideal S1x128x3 .f32) (cn : Nat) (hc : cn < 3) (q : Fin 128) :
    k0_pay2 (F := Ideal) x1 (ix2 (⟨cn, hc⟩ : Fin 3) q) = x1 (ix3 (0 : Fin 1) q (⟨cn, hc⟩ : Fin 3)) := by
  unfold k0_pay2
  refine (transpose_apply [1, 0] _ transposes_S128x3_p1_0_S3x128 (ix2 (⟨cn, hc⟩ : Fin 3) q) (ix2 q (⟨cn, hc⟩ : Fin 3))
    (fun b => ?_)).trans ?_
  · match b with
    | ⟨0, _⟩ => rfl
    | ⟨1, _⟩ => rfl
  · exact shapeCast_apply x1 shapeCasts_S1x128x3_S128x3 (ix2 q (⟨cn, hc⟩ : Fin 3)) (ix3 (0 : Fin 1) q (⟨cn, hc⟩ : Fin 3))
      (by rw [Shape.rowMajor_val_three, Shape.rowMajor_val_two]
          show (0 * 128 + q.val) * 3 + cn = q.val * 3 + cn
          omega)

/-- A column of the query block broadcast along the rows of a plane: entry (p, q) is coordinate `c` of query point `p`. -/
theorem queryCol_apply (x0 : Vec Ideal S128x3 .f32) (cn : Nat) (hc : cn < 3) (h : S128x3.Slices ![0, cn] S128x1)
    (p q : Fin 128) :
    broadcastTo S128x128 (extractStridedSlice S128x1 ![0, cn] x0 h) broadcasts_S128x1_S128x128 (ix2 p q)
      = x0 (ix2 p (⟨cn, hc⟩ : Fin 3)) := by
  refine (broadcastTo_apply _ broadcasts_S128x1_S128x128 (ix2 p q) (ix2 p (0 : Fin 1)) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
  · exact extractStridedSlice_apply ![0, cn] x0 h (ix2 p (0 : Fin 1)) (ix2 p (⟨cn, hc⟩ : Fin 3)) (fun a => by
      match a with
      | ⟨0, _⟩ => show p.val = 0 + p.val; omega
      | ⟨1, _⟩ => show cn = cn + 0; omega)

/-- A row of a 3 × 128 matrix broadcast down the columns of a plane: entry (p, q) is the matrix at (c, q). -/
theorem row_apply (T : FVec Ideal S3x128 .f32) (cn : Nat) (hc : cn < 3) (h : S3x128.Slices ![cn, 0] S1x128)
    (p q : Fin 128) :
    broadcastTo S128x128 (extractStridedSlice S1x128 ![cn, 0] T h) broadcasts_S1x128_S128x128 (ix2 p q)
      = T (ix2 (⟨cn, hc⟩ : Fin 3) q) := by
  refine (broadcastTo_apply _ broadcasts_S1x128_S128x128 (ix2 p q) (ix2 (0 : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  · exact extractStridedSlice_apply ![cn, 0] T h (ix2 (0 : Fin 1) q) (ix2 (⟨cn, hc⟩ : Fin 3) q) (fun a => by
      match a with
      | ⟨0, _⟩ => show cn = cn + 0; omega
      | ⟨1, _⟩ => show q.val = 0 + q.val; omega)

/-- A row of the transposed key block broadcast down the columns of a plane: entry (p, q) is coordinate `c` of key
    point `q`. -/
theorem keyRow_apply (x1 : Vec Ideal S1x128x3 .f32) (cn : Nat) (hc : cn < 3) (h : S3x128.Slices ![cn, 0] S1x128)
    (p q : Fin 128) :
    broadcastTo S128x128 (extractStridedSlice S1x128 ![cn, 0] (k0_pay2 (F := Ideal) x1) h) broadcasts_S1x128_S128x128 (ix2 p q)
      = x1 (ix3 (0 : Fin 1) q (⟨cn, hc⟩ : Fin 3)) :=
  (row_apply (k0_pay2 (F := Ideal) x1) cn hc h p q).trans (keysT_apply x1 cn hc q)

/-- The sign of a value as the body spells it — ±1 by the order where the magnitude is positive, the value itself at
    zero — times log (1 + magnitude), at an entry: the sign-log transform of the entry. -/
theorem signlog_apply {s : Shape} (v : FVec Ideal s .f32) (i : s.Idx) :
    mulf (select (cmpf .ogt (absf v) (broadcast s (Scalar.ofBits .f32 0x00000000#32)))
        (select (cmpf .olt v (constant s .f32 0x00000000#32)) (constant s .f32 0xBF800000#32) (constant s .f32 0x3F800000#32)) v)
      (log1p (absf v)) i = slog (v i) := by
  unfold slog
  rw [← Ideal.jnp_sign_eq_sign_f32 (v i)]
  rfl

/-- Plane 0 at entry (p, q). -/
theorem plane0_apply (x0 : Vec Ideal S128x3 .f32) (x1 : Vec Ideal S1x128x3 .f32) (p q : Fin 128) :
    k0_pay3 (F := Ideal) x0 x1 (ix2 p q)
      = slog (x0 (ix2 p (⟨0, by decide⟩ : Fin 3)) - x1 (ix3 (0 : Fin 1) q (⟨0, by decide⟩ : Fin 3))) := by
  unfold k0_pay3
  refine (signlog_apply _ (ix2 p q)).trans ?_
  refine congrArg slog ?_
  show _ - _ = _
  rw [queryCol_apply x0 0 (by decide) _ p q, keyRow_apply x1 0 (by decide) _ p q]

/-- Plane 1 at entry (p, q). -/
theorem plane1_apply (x0 : Vec Ideal S128x3 .f32) (x1 : Vec Ideal S1x128x3 .f32) (p q : Fin 128) :
    k0_pay4 (F := Ideal) x0 x1 (ix2 p q)
      = slog (x0 (ix2 p (⟨1, by decide⟩ : Fin 3)) - x1 (ix3 (0 : Fin 1) q (⟨1, by decide⟩ : Fin 3))) := by
  unfold k0_pay4
  refine (signlog_apply _ (ix2 p q)).trans ?_
  refine congrArg slog ?_
  show _ - _ = _
  rw [queryCol_apply x0 1 (by decide) _ p q, keyRow_apply x1 1 (by decide) _ p q]

/-- The difference plane of coordinate 2 at entry (p, q). -/
theorem diff2_apply (x0 : Vec Ideal S128x3 .f32) (x1 : Vec Ideal S1x128x3 .f32) (p q : Fin 128) :
    k0_pay5 (F := Ideal) x0 x1 (ix2 p q)
      = x0 (ix2 p (⟨2, by decide⟩ : Fin 3)) - x1 (ix3 (0 : Fin 1) q (⟨2, by decide⟩ : Fin 3)) := by
  unfold k0_pay5
  show _ - _ = _
  rw [queryCol_apply x0 2 (by decide) _ p q, keyRow_apply x1 2 (by decide) _ p q]

end Cert.KernelIdeal.Block

end
-- ==== Proof.Layers.lean ====
/-
  The three layers of the perceptron as the body computes them over a whole block, read at an entry.

  A block has 128 × 128 = 16384 (query, key) pairs, numbered M.  The body keeps the features as a 3 × 16384 matrix B
  and computes
    H1 = max (Bᵀ · W1 + b1) 0          (16384 × 128; the product contracts the LEADING axis of both operands),
    H2 = max (H1 · W2 + b2) 0          (16384 × 128),
    O  = W3ᵀ · H2ᵀ + b3                (4 × 16384; the product contracts W3's leading and H2's trailing axis),
  each product into a zero accumulator.  At the extended reals a product into the zero accumulator is the plain sum
  over the contracted index, so each entry is one layer of `PairBias` applied to the row of pair M; in the last
  layer the factors of each product stand in the other order, which commutativity of the product repairs.
-/
import proofs.«400946_j78993038508266_3_alg».proof.Proof.Gen.KernelIdeal.Skeleton
import proofs.«400946_j78993038508266_3_alg».proof.Proof.PairBias
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.PairBias

/-! ## A bias vector broadcast over the pairs -/

/-- A bias over 128 units laid along the rows of a 16384 × 128 matrix: entry (M, d) is the bias of unit `d`. -/
theorem rowBias_apply (b : FVec Ideal S128 .f32) (h1 : S128.ShapeCasts S1x128) (h2 : S1x128.Broadcasts S16384x128)
    (M : Fin 16384) (d : Fin 128) :
    broadcastTo S16384x128 (shapeCast S1x128 b h1) h2 (ix2 M d) = b (ix1 d) := by
  refine (broadcastTo_apply _ h2 (ix2 M d) (ix2 (0 : Fin 1) d) (fun a => ?_)).trans ?_
  · match a with
    | ⟨0, _⟩ => show 0 = if (1 : Nat) = 1 then 0 else M.val; rw [if_pos rfl]
    | ⟨1, _⟩ => show d.val = if (128 : Nat) = 1 then 0 else d.val; rw [if_neg (by decide)]
  · exact shapeCast_apply b h1 (ix2 (0 : Fin 1) d) (ix1 d)
      (by rw [Shape.rowMajor_val_one, Shape.rowMajor_val_two]; show d.val = 0 * 128 + d.val; omega)

/-- A bias over 4 channels laid down the columns of a 4 × 16384 matrix: entry (o, M) is the bias of channel `o`. -/
theorem colBias_apply (b : FVec Ideal S4 .f32) (h1 : S4.ShapeCasts S4x1) (h2 : S4x1.Broadcasts S4x16384)
    (o : Fin 4) (M : Fin 16384) :
    broadcastTo S4x16384 (shapeCast S4x1 b h1) h2 (ix2 o M) = b (ix1 o) := by
  refine (broadcastTo_apply _ h2 (ix2 o M) (ix2 o (0 : Fin 1)) (fun a => ?_)).trans ?_
  · match a with
    | ⟨0, _⟩ => show o.val = if (4 : Nat) = 1 then 0 else o.val; rw [if_neg (by decide)]
    | ⟨1, _⟩ => show 0 = if (1 : Nat) = 1 then 0 else M.val; rw [if_pos rfl]
  · exact shapeCast_apply b h1 (ix2 o (0 : Fin 1)) (ix1 o)
      (by rw [Shape.rowMajor_val_one, Shape.rowMajor_val_two]; show o.val = o.val * 1 + 0; omega)

/-! ## First layer: Bᵀ · W1 -/

theorem lhs1_0 (i : S16384x128.Idx) (q : dot_S3x16384_S3x128_S16384x128_0_0_1_1_n_n.contr.Idx) :
    (dot_S3x16384_S3x128_S16384x128_0_0_1_1_n_n.lhsIdx i q 0).val = (q ⟨0, by decide⟩).val :=
  dot_S3x16384_S3x128_S16384x128_0_0_1_1_n_n.lhsIdx_val_of_single rfl i q
theorem lhs1_1 (i : S16384x128.Idx) (q : dot_S3x16384_S3x128_S16384x128_0_0_1_1_n_n.contr.Idx) :
    (dot_S3x16384_S3x128_S16384x128_0_0_1_1_n_n.lhsIdx i q 1).val = (i 0).val := by
  unfold DotDims.lhsIdx
  rw [dif_neg (show ¬(1 : Fin S3x16384.rank) ∈ dot_S3x16384_S3x128_S16384x128_0_0_1_1_n_n.lhsBatch by decide), dif_pos (show (1 : Fin S3x16384.rank) ∈ dot_S3x16384_S3x128_S16384x128_0_0_1_1_n_n.lhsNonContracting by decide)]
  rfl
theorem rhs1_0 (i : S16384x128.Idx) (q : dot_S3x16384_S3x128_S16384x128_0_0_1_1_n_n.contr.Idx) :
    (dot_S3x16384_S3x128_S16384x128_0_0_1_1_n_n.rhsIdx i q 0).val = (q ⟨0, by decide⟩).val :=
  dot_S3x16384_S3x128_S16384x128_0_0_1_1_n_n.rhsIdx_val_of_single rfl i q
theorem rhs1_1 (i : S16384x128.Idx) (q : dot_S3x16384_S3x128_S16384x128_0_0_1_1_n_n.contr.Idx) :
    (dot_S3x16384_S3x128_S16384x128_0_0_1_1_n_n.rhsIdx i q 1).val = (i 1).val := by
  unfold DotDims.rhsIdx
  rw [dif_neg (show ¬(1 : Fin S3x128.rank) ∈ dot_S3x16384_S3x128_S16384x128_0_0_1_1_n_n.rhsBatch by decide), dif_pos (show (1 : Fin S3x128.rank) ∈ dot_S3x16384_S3x128_S16384x128_0_0_1_1_n_n.rhsNonContracting by decide)]
  rfl

/-- Entry (M, d) of Bᵀ · W1 is the sum over the three features of pair `M` times the weights into unit `d`. -/
theorem prod1_apply (B : FVec Ideal S3x16384 .f32) (w : FVec Ideal S3x128 .f32) (M : Fin 16384) (d : Fin 128) :
    matmul dot_S3x16384_S3x128_S16384x128_0_0_1_1_n_n (some .fp32) B w (constant S16384x128 .f32 0x00000000#32) (ix2 M d)
      = ∑ c : Fin 3, B (ix2 c M) * w (ix2 c d) := by
  show FloatOps.matmul dot_S3x16384_S3x128_S16384x128_0_0_1_1_n_n (some .fp32) B w (constant S16384x128 .f32 0x00000000#32) (ix2 M d) = _
  rw [Ideal.matmul_constant_zero_apply, ← Equiv.sum_comp (contrEquiv1 dot_S3x16384_S3x128_S16384x128_0_0_1_1_n_n 3 rfl rfl).symm]
  refine Finset.sum_congr rfl fun k _ => ?_
  have hk := contrEquiv1_symm_val dot_S3x16384_S3x128_S16384x128_0_0_1_1_n_n 3 rfl rfl k
  have el : dot_S3x16384_S3x128_S16384x128_0_0_1_1_n_n.lhsIdx (ix2 M d) ((contrEquiv1 dot_S3x16384_S3x128_S16384x128_0_0_1_1_n_n 3 rfl rfl).symm k) = ix2 k M := funext fun a => Fin.ext (by
    match a with
    | ⟨0, _⟩ => exact (lhs1_0 _ _).trans hk
    | ⟨1, _⟩ => exact lhs1_1 _ _)
  have er : dot_S3x16384_S3x128_S16384x128_0_0_1_1_n_n.rhsIdx (ix2 M d) ((contrEquiv1 dot_S3x16384_S3x128_S16384x128_0_0_1_1_n_n 3 rfl rfl).symm k) = ix2 k d := funext fun a => Fin.ext (by
    match a with
    | ⟨0, _⟩ => exact (rhs1_0 _ _).trans hk
    | ⟨1, _⟩ => exact rhs1_1 _ _)
  rw [el, er]

/-- The first layer over the block at entry (M, d): `layer1` of pair `M`'s features at unit `d`. -/
theorem first_apply (B : FVec Ideal S3x16384 .f32) (w : FVec Ideal S3x128 .f32) (b : FVec Ideal S128 .f32)
    (h1 : S128.ShapeCasts S1x128) (h2 : S1x128.Broadcasts S16384x128) (M : Fin 16384) (d : Fin 128) :
    maximumf (addf (matmul dot_S3x16384_S3x128_S16384x128_0_0_1_1_n_n (some .fp32) B w (constant S16384x128 .f32 0x00000000#32))
        (broadcastTo S16384x128 (shapeCast S1x128 b h1) h2)) (broadcast S16384x128 (Scalar.ofBits .f32 0x00000000#32)) (ix2 M d)
      = layer1 (fun c => B (ix2 c M)) (fun c d => w (ix2 c d)) (fun d => b (ix1 d)) d := by
  show max (_ + _) _ = _
  rw [prod1_apply, rowBias_apply]
  rfl

/-! ## Second layer: H1 · W2 -/

theorem lhs2_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhs2_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs2_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs2_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- Entry (M, e) of H · W2 is the sum over the 128 units of pair `M`'s row of H times the weights into unit `e`. -/
theorem prod2_apply (H : FVec Ideal S16384x128 .f32) (w : FVec Ideal S128x128 .f32) (M : Fin 16384) (e : Fin 128) :
    matmul dot_S16384x128_S128x128_S16384x128_1_0_0_1_n_n (some .fp32) H w (constant S16384x128 .f32 0x00000000#32) (ix2 M e)
      = ∑ d : Fin 128, H (ix2 M d) * w (ix2 d e) := by
  show FloatOps.matmul dot_S16384x128_S128x128_S16384x128_1_0_0_1_n_n (some .fp32) H w (constant S16384x128 .f32 0x00000000#32) (ix2 M e) = _
  rw [Ideal.matmul_constant_zero_apply, ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 M e) ((contrEquiv1 dot_S16384x128_S128x128_S16384x128_1_0_0_1_n_n 128 rfl rfl).symm k) = ix2 M k := funext fun a => Fin.ext (by
    match a with
    | ⟨0, _⟩ => exact lhs2_0 _ _
    | ⟨1, _⟩ => exact (lhs2_1 _ _).trans hk)
  have er : dot_S16384x128_S128x128_S16384x128_1_0_0_1_n_n.rhsIdx (ix2 M e) ((contrEquiv1 dot_S16384x128_S128x128_S16384x128_1_0_0_1_n_n 128 rfl rfl).symm k) = ix2 k e := funext fun a => Fin.ext (by
    match a with
    | ⟨0, _⟩ => exact (rhs2_0 _ _).trans hk
    | ⟨1, _⟩ => exact rhs2_1 _ _)
  rw [el, er]

/-- The second layer over the block at entry (M, e): `layer2` of pair `M`'s row of H at unit `e`. -/
theorem second_apply (H : FVec Ideal S16384x128 .f32) (w : FVec Ideal S128x128 .f32) (b : FVec Ideal S128 .f32)
    (h1 : S128.ShapeCasts S1x128) (h2 : S1x128.Broadcasts S16384x128) (M : Fin 16384) (e : Fin 128) :
    maximumf (addf (matmul dot_S16384x128_S128x128_S16384x128_1_0_0_1_n_n (some .fp32) H w (constant S16384x128 .f32 0x00000000#32))
        (broadcastTo S16384x128 (shapeCast S1x128 b h1) h2)) (broadcast S16384x128 (Scalar.ofBits .f32 0x00000000#32)) (ix2 M e)
      = layer2 (fun d => H (ix2 M d)) (fun d e => w (ix2 d e)) (fun e => b (ix1 e)) e := by
  show max (_ + _) _ = _
  rw [prod2_apply, rowBias_apply]
  rfl

/-! ## Output layer: W3ᵀ · H2ᵀ -/

theorem lhs3_0 (i : S4x16384.Idx) (q : dot_S128x4_S16384x128_S4x16384_0_1_1_0_n_n.contr.Idx) :
    (dot_S128x4_S16384x128_S4x16384_0_1_1_0_n_n.lhsIdx i q 0).val = (q ⟨0, by decide⟩).val :=
  dot_S128x4_S16384x128_S4x16384_0_1_1_0_n_n.lhsIdx_val_of_single rfl i q
theorem lhs3_1 (i : S4x16384.Idx) (q : dot_S128x4_S16384x128_S4x16384_0_1_1_0_n_n.contr.Idx) :
    (dot_S128x4_S16384x128_S4x16384_0_1_1_0_n_n.lhsIdx i q 1).val = (i 0).val := by
  unfold DotDims.lhsIdx
  rw [dif_neg (show ¬(1 : Fin S128x4.rank) ∈ dot_S128x4_S16384x128_S4x16384_0_1_1_0_n_n.lhsBatch by decide), dif_pos (show (1 : Fin S128x4.rank) ∈ dot_S128x4_S16384x128_S4x16384_0_1_1_0_n_n.lhsNonContracting by decide)]
  rfl
theorem rhs3_0 (i : S4x16384.Idx) (q : dot_S128x4_S16384x128_S4x16384_0_1_1_0_n_n.contr.Idx) :
    (dot_S128x4_S16384x128_S4x16384_0_1_1_0_n_n.rhsIdx i q 0).val = (i 1).val := by
  unfold DotDims.rhsIdx
  rw [dif_neg (show ¬(0 : Fin S16384x128.rank) ∈ dot_S128x4_S16384x128_S4x16384_0_1_1_0_n_n.rhsBatch by decide), dif_pos (show (0 : Fin S16384x128.rank) ∈ dot_S128x4_S16384x128_S4x16384_0_1_1_0_n_n.rhsNonContracting by decide)]
  rfl
theorem rhs3_1 (i : S4x16384.Idx) (q : dot_S128x4_S16384x128_S4x16384_0_1_1_0_n_n.contr.Idx) :
    (dot_S128x4_S16384x128_S4x16384_0_1_1_0_n_n.rhsIdx i q 1).val = (q ⟨0, by decide⟩).val :=
  dot_S128x4_S16384x128_S4x16384_0_1_1_0_n_n.rhsIdx_val_of_single rfl i q

/-- Entry (o, M) of W3ᵀ · Hᵀ is the sum over the 128 units of the weight into channel `o` times pair `M`'s row of H. -/
theorem prod3_apply (w : FVec Ideal S128x4 .f32) (H : FVec Ideal S16384x128 .f32) (o : Fin 4) (M : Fin 16384) :
    matmul dot_S128x4_S16384x128_S4x16384_0_1_1_0_n_n (some .fp32) w H (constant S4x16384 .f32 0x00000000#32) (ix2 o M)
      = ∑ e : Fin 128, w (ix2 e o) * H (ix2 M e) := by
  show FloatOps.matmul dot_S128x4_S16384x128_S4x16384_0_1_1_0_n_n (some .fp32) w H (constant S4x16384 .f32 0x00000000#32) (ix2 o M) = _
  rw [Ideal.matmul_constant_zero_apply, ← Equiv.sum_comp (contrEquiv1 dot_S128x4_S16384x128_S4x16384_0_1_1_0_n_n 128 rfl rfl).symm]
  refine Finset.sum_congr rfl fun k _ => ?_
  have hk := contrEquiv1_symm_val dot_S128x4_S16384x128_S4x16384_0_1_1_0_n_n 128 rfl rfl k
  have el : dot_S128x4_S16384x128_S4x16384_0_1_1_0_n_n.lhsIdx (ix2 o M) ((contrEquiv1 dot_S128x4_S16384x128_S4x16384_0_1_1_0_n_n 128 rfl rfl).symm k) = ix2 k o := funext fun a => Fin.ext (by
    match a with
    | ⟨0, _⟩ => exact (lhs3_0 _ _).trans hk
    | ⟨1, _⟩ => exact lhs3_1 _ _)
  have er : dot_S128x4_S16384x128_S4x16384_0_1_1_0_n_n.rhsIdx (ix2 o M) ((contrEquiv1 dot_S128x4_S16384x128_S4x16384_0_1_1_0_n_n 128 rfl rfl).symm k) = ix2 M k := funext fun a => Fin.ext (by
    match a with
    | ⟨0, _⟩ => exact rhs3_0 _ _
    | ⟨1, _⟩ => exact (rhs3_1 _ _).trans hk)
  rw [el, er]

/-- The output layer over the block at entry (o, M): `layer3` of pair `M`'s row of H at channel `o` (each product's
    factors exchanged). -/
theorem third_apply (w : FVec Ideal S128x4 .f32) (H : FVec Ideal S16384x128 .f32) (b : FVec Ideal S4 .f32)
    (h1 : S4.ShapeCasts S4x1) (h2 : S4x1.Broadcasts S4x16384) (o : Fin 4) (M : Fin 16384) :
    addf (matmul dot_S128x4_S16384x128_S4x16384_0_1_1_0_n_n (some .fp32) w H (constant S4x16384 .f32 0x00000000#32))
        (broadcastTo S4x16384 (shapeCast S4x1 b h1) h2) (ix2 o M)
      = layer3 (fun e => H (ix2 M e)) (fun e o => w (ix2 e o)) (fun o => b (ix1 o)) o := by
  show _ + _ = _
  rw [prod3_apply, colBias_apply]
  unfold layer3
  exact congrArg (· + b (ix1 o)) (Finset.sum_congr rfl fun e _ => mul_comm _ _)

end Cert.KernelIdeal.Block

end
-- ==== Proof.BlockValue.lean ====
/-
  What the body leaves in the output block, read at an entry.

  The three feature planes (128 × 128 each) are stacked to 3 × 128 × 128 and flattened to the 3 × 16384 feature matrix:
  column M = p · 128 + q holds the three features of the pair (query point p, key point q).  The three layers run over
  that matrix, and the 4 × 16384 result is split back to 4 × 128 × 128.  So entry (o, p, q) of the block is the bias of
  the pair (p, q) at channel o: `PairBias.pair` of row p of the query block and row q of the key block.
-/
import proofs.«400946_j78993038508266_3_alg».proof.Proof.Planes
import proofs.«400946_j78993038508266_3_alg».proof.Proof.Layers

noncomputable section

namespace Cert.KernelIdeal.Block

open Cert.KernelIdeal Cert.KernelIdeal.Gen Idealize.ShloMosaic Idealize.ShloMosaic.ValueIdx Cert.PairBias

/-! ## The feature matrix: column p · 128 + q of row c is plane c at (p, q) -/

theorem stack0_apply (P0 P1 P2 : FVec Ideal S128x128 .f32) (hc : S128x128.ShapeCasts S1x128x128)
    (hcat : Shape.Concatenates ([(⟨S1x128x128, shapeCast S1x128x128 P0 hc⟩ : (s : Shape) × (s.Idx → Ideal .f32)), ⟨S1x128x128, shapeCast S1x128x128 P1 hc⟩, ⟨S1x128x128, shapeCast S1x128x128 P2 hc⟩].map (·.1)) S3x128x128 0)
    (hs : S3x128x128.ShapeCasts S3x16384) (p q : Fin 128) (M : Fin 16384) (hM : M.val = p.val * 128 + q.val) :
    shapeCast S3x16384 (concatenate S3x128x128 0 [⟨S1x128x128, shapeCast S1x128x128 P0 hc⟩, ⟨S1x128x128, shapeCast S1x128x128 P1 hc⟩, ⟨S1x128x128, shapeCast S1x128x128 P2 hc⟩] hcat) hs (ix2 (⟨0, by decide⟩ : Fin 3) M)
      = P0 (ix2 p q) := by
  refine (shapeCast_apply _ hs (ix2 (⟨0, by decide⟩ : Fin 3) M) (ix3 (⟨0, by decide⟩ : Fin 3) p q)
    (by rw [Shape.rowMajor_val_three, Shape.rowMajor_val_two]
        show (0 * 128 + p.val) * 128 + q.val = 0 * 16384 + M.val
        omega)).trans ?_
  refine (concatenate_apply_piece (0 : Fin S3x128x128.rank) _ hcat (ix3 (⟨0, by decide⟩ : Fin 3) p q) 0 (by show (0 : Nat) < 3; omega)
    S1x128x128 (shapeCast S1x128x128 P0 hc) rfl rfl 0 rfl (ix3 (0 : Fin 1) p q) (fun b hb => ?_) (by show 0 + 0 = 0; omega)).trans ?_
  · match b with
    | ⟨0, _⟩ => exact absurd rfl hb
    | ⟨1, _⟩ => rfl
    | ⟨2, _⟩ => rfl
  · exact shapeCast_apply P0 hc (ix3 (0 : Fin 1) p q) (ix2 p q)
      (by rw [Shape.rowMajor_val_two, Shape.rowMajor_val_three]; show p.val * 128 + q.val = (0 * 128 + p.val) * 128 + q.val; omega)

theorem stack1_apply (P0 P1 P2 : FVec Ideal S128x128 .f32) (hc : S128x128.ShapeCasts S1x128x128)
    (hcat : Shape.Concatenates ([(⟨S1x128x128, shapeCast S1x128x128 P0 hc⟩ : (s : Shape) × (s.Idx → Ideal .f32)), ⟨S1x128x128, shapeCast S1x128x128 P1 hc⟩, ⟨S1x128x128, shapeCast S1x128x128 P2 hc⟩].map (·.1)) S3x128x128 0)
    (hs : S3x128x128.ShapeCasts S3x16384) (p q : Fin 128) (M : Fin 16384) (hM : M.val = p.val * 128 + q.val) :
    shapeCast S3x16384 (concatenate S3x128x128 0 [⟨S1x128x128, shapeCast S1x128x128 P0 hc⟩, ⟨S1x128x128, shapeCast S1x128x128 P1 hc⟩, ⟨S1x128x128, shapeCast S1x128x128 P2 hc⟩] hcat) hs (ix2 (⟨1, by decide⟩ : Fin 3) M)
      = P1 (ix2 p q) := by
  refine (shapeCast_apply _ hs (ix2 (⟨1, by decide⟩ : Fin 3) M) (ix3 (⟨1, by decide⟩ : Fin 3) p q)
    (by rw [Shape.rowMajor_val_three, Shape.rowMajor_val_two]
        show (1 * 128 + p.val) * 128 + q.val = 1 * 16384 + M.val
        omega)).trans ?_
  refine (concatenate_apply_piece (0 : Fin S3x128x128.rank) _ hcat (ix3 (⟨1, by decide⟩ : Fin 3) p q) 1 (by show (1 : Nat) < 3; omega)
    S1x128x128 (shapeCast S1x128x128 P1 hc) rfl rfl 1 rfl (ix3 (0 : Fin 1) p q) (fun b hb => ?_) (by show 1 + 0 = 1; omega)).trans ?_
  · match b with
    | ⟨0, _⟩ => exact absurd rfl hb
    | ⟨1, _⟩ => rfl
    | ⟨2, _⟩ => rfl
  · exact shapeCast_apply P1 hc (ix3 (0 : Fin 1) p q) (ix2 p q)
      (by rw [Shape.rowMajor_val_two, Shape.rowMajor_val_three]; show p.val * 128 + q.val = (0 * 128 + p.val) * 128 + q.val; omega)

theorem stack2_apply (P0 P1 P2 : FVec Ideal S128x128 .f32) (hc : S128x128.ShapeCasts S1x128x128)
    (hcat : Shape.Concatenates ([(⟨S1x128x128, shapeCast S1x128x128 P0 hc⟩ : (s : Shape) × (s.Idx → Ideal .f32)), ⟨S1x128x128, shapeCast S1x128x128 P1 hc⟩, ⟨S1x128x128, shapeCast S1x128x128 P2 hc⟩].map (·.1)) S3x128x128 0)
    (hs : S3x128x128.ShapeCasts S3x16384) (p q : Fin 128) (M : Fin 16384) (hM : M.val = p.val * 128 + q.val) :
    shapeCast S3x16384 (concatenate S3x128x128 0 [⟨S1x128x128, shapeCast S1x128x128 P0 hc⟩, ⟨S1x128x128, shapeCast S1x128x128 P1 hc⟩, ⟨S1x128x128, shapeCast S1x128x128 P2 hc⟩] hcat) hs (ix2 (⟨2, by decide⟩ : Fin 3) M)
      = P2 (ix2 p q) := by
  refine (shapeCast_apply _ hs (ix2 (⟨2, by decide⟩ : Fin 3) M) (ix3 (⟨2, by decide⟩ : Fin 3) p q)
    (by rw [Shape.rowMajor_val_three, Shape.rowMajor_val_two]
        show (2 * 128 + p.val) * 128 + q.val = 2 * 16384 + M.val
        omega)).trans ?_
  refine (concatenate_apply_piece (0 : Fin S3x128x128.rank) _ hcat (ix3 (⟨2, by decide⟩ : Fin 3) p q) 2 (by show (2 : Nat) < 3; omega)
    S1x128x128 (shapeCast S1x128x128 P2 hc) rfl rfl 2 rfl (ix3 (0 : Fin 1) p q) (fun b hb => ?_) (by show 2 + 0 = 2; omega)).trans ?_
  · match b with
    | ⟨0, _⟩ => exact absurd rfl hb
    | ⟨1, _⟩ => rfl
    | ⟨2, _⟩ => rfl
  · exact shapeCast_apply P2 hc (ix3 (0 : Fin 1) p q) (ix2 p q)
      (by rw [Shape.rowMajor_val_two, Shape.rowMajor_val_three]; show p.val * 128 + q.val = (0 * 128 + p.val) * 128 + q.val; omega)

/-! ## The block -/

/-- Entry (o, p, q) of what the body stores is the bias of the pair (query row p, key row q) at channel `o`. -/
theorem block_apply (x0 : Vec Ideal S128x3 .f32) (x1 : Vec Ideal S1x128x3 .f32) (x2 : Vec Ideal S3x128 .f32)
    (x3 : Vec Ideal S128 .f32) (x4 : Vec Ideal S128x128 .f32) (x5 : Vec Ideal S128 .f32) (x6 : Vec Ideal S128x4 .f32)
    (x7 : Vec Ideal S4 .f32) (o : Fin 4) (p q : Fin 128) :
    k0_pay1 (F := Ideal) (k0_pay3 x0 x1) (k0_pay4 x0 x1) (k0_pay5 x0 x1) (k0_pay6 x0 x1) (k0_pay7 x0 x1)
        (Scalar.ofBits .f32 0x00000000#32) x2 x3 x4 x5 x6 x7 (ix3 o p q)
      = pair (fun c => x0 (ix2 p c)) (fun c => x1 (ix3 (0 : Fin 1) q c)) (fun c d => x2 (ix2 c d)) (fun d => x3 (ix1 d))
          (fun d e => x4 (ix2 d e)) (fun e => x5 (ix1 e)) (fun e o => x6 (ix2 e o)) (fun o => x7 (ix1 o)) o := by
  have hp : p.val < 128 := p.isLt
  have hq : q.val < 128 := q.isLt
  have ho : o.val < 4 := o.isLt
  obtain ⟨M, hM⟩ : ∃ M : Fin 16384, M.val = p.val * 128 + q.val := ⟨⟨p.val * 128 + q.val, by omega⟩, rfl⟩
  unfold k0_pay1
  refine (shapeCast_apply _ shapeCasts_S4x16384_S4x128x128 (ix3 o p q) (ix2 o M)
    (by rw [Shape.rowMajor_val_two, Shape.rowMajor_val_three]
        show o.val * 16384 + M.val = (o.val * 128 + p.val) * 128 + q.val
        omega)).trans ?_
  refine (third_apply _ _ _ _ _ o M).trans ?_
  unfold pair
  congr 1
  funext e
  refine (second_apply _ _ _ _ _ M e).trans ?_
  congr 1
  funext d
  refine (first_apply _ _ _ _ _ M d).trans ?_
  congr 1
  funext c
  match c with
  | ⟨0, _⟩ => exact (stack0_apply _ _ _ _ _ _ p q M hM).trans (plane0_apply x0 x1 p q)
  | ⟨1, _⟩ => exact (stack1_apply _ _ _ _ _ _ p q M hM).trans (plane1_apply x0 x1 p q)
  | ⟨2, _⟩ =>
    refine (stack2_apply _ _ _ _ _ _ p q M hM).trans ?_
    unfold k0_pay6 k0_pay7
    refine (signlog_apply _ (ix2 p q)).trans ?_
    exact congrArg slog (diff2_apply x0 x1 p q)

/-- The same at an index of the block given whole. -/
theorem block_apply' (x0 : Vec Ideal S128x3 .f32) (x1 : Vec Ideal S1x128x3 .f32) (x2 : Vec Ideal S3x128 .f32)
    (x3 : Vec Ideal S128 .f32) (x4 : Vec Ideal S128x128 .f32) (x5 : Vec Ideal S128 .f32) (x6 : Vec Ideal S128x4 .f32)
    (x7 : Vec Ideal S4 .f32) (y : S4x128x128.Idx) :
    k0_pay1 (F := Ideal) (k0_pay3 x0 x1) (k0_pay4 x0 x1) (k0_pay5 x0 x1) (k0_pay6 x0 x1) (k0_pay7 x0 x1)
        (Scalar.ofBits .f32 0x00000000#32) x2 x3 x4 x5 x6 x7 y
      = pair (fun c => x0 (ix2 (y 1) c)) (fun c => x1 (ix3 (0 : Fin 1) (y 2) c)) (fun c d => x2 (ix2 c d)) (fun d => x3 (ix1 d))
          (fun d e => x4 (ix2 d e)) (fun e => x5 (ix1 e)) (fun e o => x6 (ix2 e o)) (fun o => x7 (ix1 o)) (y 0) := by
  exact (congrArg (k0_pay1 (F := Ideal) (k0_pay3 x0 x1) (k0_pay4 x0 x1) (k0_pay5 x0 x1) (k0_pay6 x0 x1) (k0_pay7 x0 x1)
      (Scalar.ofBits .f32 0x00000000#32) x2 x3 x4 x5 x6 x7) (eq_ix3 y)).trans
    (block_apply x0 x1 x2 x3 x4 x5 x6 x7 (y 0) (y 1) (y 2))

end Cert.KernelIdeal.Block

end
-- ==== Proof.KernelArray.lean ====
/-
  The array the kernel leaves, as one function of the argument arrays.

  The grid has 4 × 4 × 4 points (group g, query tile ti, key tile tj).  At a point the body sees rows
  ti·128 … ti·128+127 of the query array, rows tj·128 … tj·128+127 of group g's keys, and the whole weight arrays, and
  it writes the 4 × 128 × 128 block of the 16 × 512 × 512 result at (g·4, ti·128, tj·128).  By `Block.block_apply`
  entry (o, p, q) of that block is the bias of query row ti·128+p and key row tj·128+q of group g at channel o, which
  is entry (g·4+o, ti·128+p, tj·128+q) of `PairBias.table`: every point writes a block of ONE function of the
  arguments.  The 64 blocks tile the result, so the array after the launch is that function, and the reshape that
  follows the launch only adds a leading axis of extent one.
-/
import proofs.«400946_j78993038508266_3_alg».proof.Proof.Gen.KernelIdeal.Frame
import proofs.«400946_j78993038508266_3_alg».proof.Proof.BlockValue
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.PairBias Cert.KernelIdeal.Block

variable (m : (ℓ : Loc nD τ sig) → Buf (Elt Ideal) ℓ) (ρ : Dev nD → PrngReg)

/-- The launch's result array: `PairBias.table` of the argument arrays as the launch finds them. -/
def whole (c : Dev nD) : Vec Ideal S16x512x512 .f32 := fun i =>
  table (V m c main_arg0) (V m c main_arg1) (V m c main_arg2) (V m c main_arg3) (V m c main_arg4) (V m c main_arg5)
    (V m c main_arg6) (V m c main_arg7) (i 0) (i 1) (i 2)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 64 grid points: the query window follows the result's second block index, the key
    window its first and third, every weight window stays at block 0, and the result's block indices are below 4. -/
theorem idx_facts : ∀ t : Fin cfg0.N,
    win0_0.index t (0 : Fin 2) = win0_8.index t (1 : Fin 3) ∧ win0_0.index t (1 : Fin 2) = 0
    ∧ win0_1.index t (0 : Fin 3) = win0_8.index t (0 : Fin 3) ∧ win0_1.index t (1 : Fin 3) = win0_8.index t (2 : Fin 3)
    ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) ≤ 3 ∧ win0_8.index t (1 : Fin 3) ≤ 3 ∧ win0_8.index t (2 : Fin 3) ≤ 3 :=
  (by decide +kernel : ∀ t : Fin grid0.N, _)

/-- Every block position of the result is some point's. -/
theorem idx_onto : ∀ (q0 q1 q2 : Fin 4), ∃ t : Fin cfg0.N, win0_8.index t = ![q0.val, q1.val, q2.val] :=
  (by decide +kernel : ∀ (q0 q1 q2 : Fin 4), ∃ t : Fin grid0.N, win0_8.index t = ![q0.val, q1.val, q2.val])

/-! ## The input blocks at a point, read off the argument arrays -/

/-- Row `p` of the query block at a point is row (query tile)·128 + p of the query array. -/
theorem blkQ (c : Dev nD) (t : Fin cfg0.N) (e0 : win0_0.index t (0 : Fin 2) = win0_8.index t (1 : Fin 3))
    (e1 : win0_0.index t (1 : Fin 2) = 0) (p : Fin 128) (cc : Fin 3) (I : Fin 512)
    (hI : I.val = win0_8.index t (1 : Fin 3) * 128 + 1 * p.val) :
    iblk m c 0 t (ix2 p cc) = V m c main_arg0 (ix2 I cc) := by
  show V m c main_arg0 (((cfg0.win 0).blk t).view.emb (ix2 p cc)) = V m c main_arg0 (ix2 I cc)
  refine congrArg _ (funext fun a => Fin.ext ?_)
  match a with
  | ⟨0, _⟩ => show win0_0.index t (0 : Fin 2) * 128 + 1 * p.val = I.val; omega
  | ⟨1, _⟩ => show win0_0.index t (1 : Fin 2) * 3 + 1 * cc.val = cc.val; omega

/-- Row `q` of the key block at a point is row (key tile)·128 + q of the point's group of the key array. -/
theorem blkK (c : Dev nD) (t : Fin cfg0.N) (e0 : win0_1.index t (0 : Fin 3) = win0_8.index t (0 : Fin 3))
    (e1 : win0_1.index t (1 : Fin 3) = win0_8.index t (2 : Fin 3)) (e2 : win0_1.index t (2 : Fin 3) = 0)
    (q : Fin 128) (cc : Fin 3) (g : Fin 4) (J : Fin 512) (hg : g.val = win0_8.index t (0 : Fin 3))
    (hJ : J.val = win0_8.index t (2 : Fin 3) * 128 + 1 * q.val) :
    iblk m c 1 t (ix3 (0 : Fin 1) q cc) = V m c main_arg1 (ix3 g J cc) := by
  show V m c main_arg1 (((cfg0.win 1).blk t).view.emb (ix3 (0 : Fin 1) q cc)) = V m c main_arg1 (ix3 g J cc)
  refine congrArg _ (funext fun a => Fin.ext ?_)
  match a with
  | ⟨0, _⟩ => show win0_1.index t (0 : Fin 3) * 1 + 1 * 0 = g.val; omega
  | ⟨1, _⟩ => show win0_1.index t (1 : Fin 3) * 128 + 1 * q.val = J.val; omega
  | ⟨2, _⟩ => show win0_1.index t (2 : Fin 3) * 3 + 1 * cc.val = cc.val; omega

/-- Window 2's block is its whole array (first-layer weights). -/
theorem blk2 (c : Dev nD) (t : Fin cfg0.N) (z0 : win0_2.index t (0 : Fin 2) = 0) (z1 : win0_2.index t (1 : Fin 2) = 0) (y : S3x128.Idx) :
    iblk m c 2 t y = V m c main_arg2 y := by
  show V m c main_arg2 (((cfg0.win 2).blk t).view.emb y) = V m c main_arg2 y
  refine congrArg _ (funext fun a => Fin.ext ?_)
  match a with
    | ⟨0, _⟩ => show win0_2.index t (0 : Fin 2) * 3 + 1 * (y 0).val = (y 0).val; omega
    | ⟨1, _⟩ => show win0_2.index t (1 : Fin 2) * 128 + 1 * (y 1).val = (y 1).val; omega

/-- Window 3's block is its whole array (first-layer bias). -/
theorem blk3 (c : Dev nD) (t : Fin cfg0.N) (z0 : win0_3.index t (0 : Fin 1) = 0) (y : S128.Idx) :
    iblk m c 3 t y = V m c main_arg3 y := by
  show V m c main_arg3 (((cfg0.win 3).blk t).view.emb y) = V m c main_arg3 y
  refine congrArg _ (funext fun a => Fin.ext ?_)
  match a with
    | ⟨0, _⟩ => show win0_3.index t (0 : Fin 1) * 128 + 1 * (y 0).val = (y 0).val; omega

/-- Window 4's block is its whole array (second-layer weights). -/
theorem blk4 (c : Dev nD) (t : Fin cfg0.N) (z0 : win0_4.index t (0 : Fin 2) = 0) (z1 : win0_4.index t (1 : Fin 2) = 0) (y : S128x128.Idx) :
    iblk m c 4 t y = V m c main_arg4 y := by
  show V m c main_arg4 (((cfg0.win 4).blk t).view.emb y) = V m c main_arg4 y
  refine congrArg _ (funext fun a => Fin.ext ?_)
  match a with
    | ⟨0, _⟩ => show win0_4.index t (0 : Fin 2) * 128 + 1 * (y 0).val = (y 0).val; omega
    | ⟨1, _⟩ => show win0_4.index t (1 : Fin 2) * 128 + 1 * (y 1).val = (y 1).val; omega

/-- Window 5's block is its whole array (second-layer bias). -/
theorem blk5 (c : Dev nD) (t : Fin cfg0.N) (z0 : win0_5.index t (0 : Fin 1) = 0) (y : S128.Idx) :
    iblk m c 5 t y = V m c main_arg5 y := by
  show V m c main_arg5 (((cfg0.win 5).blk t).view.emb y) = V m c main_arg5 y
  refine congrArg _ (funext fun a => Fin.ext ?_)
  match a with
    | ⟨0, _⟩ => show win0_5.index t (0 : Fin 1) * 128 + 1 * (y 0).val = (y 0).val; omega

/-- Window 6's block is its whole array (output weights). -/
theorem blk6 (c : Dev nD) (t : Fin cfg0.N) (z0 : win0_6.index t (0 : Fin 2) = 0) (z1 : win0_6.index t (1 : Fin 2) = 0) (y : S128x4.Idx) :
    iblk m c 6 t y = V m c main_arg6 y := by
  show V m c main_arg6 (((cfg0.win 6).blk t).view.emb y) = V m c main_arg6 y
  refine congrArg _ (funext fun a => Fin.ext ?_)
  match a with
    | ⟨0, _⟩ => show win0_6.index t (0 : Fin 2) * 128 + 1 * (y 0).val = (y 0).val; omega
    | ⟨1, _⟩ => show win0_6.index t (1 : Fin 2) * 4 + 1 * (y 1).val = (y 1).val; omega

/-- Window 7's block is its whole array (output bias). -/
theorem blk7 (c : Dev nD) (t : Fin cfg0.N) (z0 : win0_7.index t (0 : Fin 1) = 0) (y : S4.Idx) :
    iblk m c 7 t y = V m c main_arg7 y := by
  show V m c main_arg7 (((cfg0.win 7).blk t).view.emb y) = V m c main_arg7 y
  refine congrArg _ (funext fun a => Fin.ext ?_)
  match a with
    | ⟨0, _⟩ => show win0_7.index t (0 : Fin 1) * 4 + 1 * (y 0).val = (y 0).val; omega

/-! ## What a point writes back -/

/-- WHAT POINT `t` WRITES BACK is block `t` of `whole`. -/
theorem flushed_eq (c : Dev nD) (t : Fin cfg0.N) :
    (dats m 0 c).flushed 8 t = ((cfg0.win 8).blk t).view.read (Elt Ideal) (whole m c) := by
  show (cfg0.win 8).cut (grid0.coords t) ((dats m 0 c).after 8 t) = _
  rw [after0_8]
  unfold out0_8
  rw [View.canon_unit_zero hz3]
  simp only [View.ld_unit_zero (S := S128x3) hz2, View.ld_unit_zero (S := S1x128x3) hz3, View.ld_unit_zero (S := S3x128) hz2,
    View.ld_unit_zero (S := S128) hz1, View.ld_unit_zero (S := S128x128) hz2, View.ld_unit_zero (S := S128x4) hz2,
    View.ld_unit_zero (S := S4) hz1]
  obtain ⟨q0, q1, k0, k1, k2, a0, a1, b0, w0, w1, d0, u0, u1, v0, l0, l1, l2⟩ := idx_facts t
  funext j
  have hj0 : (j 0).val < 4 := (j 0).isLt
  have hj1 : (j 1).val < 128 := (j 1).isLt
  have hj2 : (j 2).val < 128 := (j 2).isLt
  show k0_pay1 (F := Ideal) (k0_pay3 (iblk m c 0 t) (iblk m c 1 t)) (k0_pay4 (iblk m c 0 t) (iblk m c 1 t))
      (k0_pay5 (iblk m c 0 t) (iblk m c 1 t)) (k0_pay6 (iblk m c 0 t) (iblk m c 1 t)) (k0_pay7 (iblk m c 0 t) (iblk m c 1 t))
      (Scalar.ofBits .f32 0x00000000#32) (iblk m c 2 t) (iblk m c 3 t) (iblk m c 4 t) (iblk m c 5 t) (iblk m c 6 t) (iblk m c 7 t) j
    = whole m c (((cfg0.win 8).blk t).view.emb j)
  refine (block_apply' (iblk m c 0 t) (iblk m c 1 t) (iblk m c 2 t) (iblk m c 3 t) (iblk m c 4 t) (iblk m c 5 t)
    (iblk m c 6 t) (iblk m c 7 t) j).trans ?_
  unfold whole table
  have hI : ((((cfg0.win 8).blk t).view.emb j) 1).val = win0_8.index t (1 : Fin 3) * 128 + 1 * (j 1).val := rfl
  have hJ : ((((cfg0.win 8).blk t).view.emb j) 2).val = win0_8.index t (2 : Fin 3) * 128 + 1 * (j 2).val := rfl
  have hC : ((((cfg0.win 8).blk t).view.emb j) 0).val = win0_8.index t (0 : Fin 3) * 4 + 1 * (j 0).val := rfl
  refine pair_congr (fun cc => blkQ m c t q0 q1 (j 1) cc _ hI)
    (fun cc => blkK m c t k0 k1 k2 (j 2) cc _ _ (by show _ / 4 = _; rw [hC]; omega) hJ)
    (fun cc d => blk2 m c t a0 a1 (ix2 cc d)) (fun d => blk3 m c t b0 (ix1 d)) (fun d e => blk4 m c t w0 w1 (ix2 d e))
    (fun e => blk5 m c t d0 (ix1 e)) (fun e o => blk6 m c t u0 u1 (ix2 e o)) (fun o => blk7 m c t v0 (ix1 o))
    (Fin.ext (by show (j 0).val = _ % 4; rw [hC]; omega))

/-! ## The blocks tile the result -/

/-- An index of the result is in point `t`'s block iff each coordinate is in the block's range on its axis. -/
theorem mem_blk (t : Fin cfg0.N) (i : S16x512x512.Idx) :
    i ∈ ((cfg0.win 8).blk t).view.set ↔ ∀ a : Fin 3, win0_8.index t a * S4x128x128.size a ≤ (i a).val ∧ (i a).val < win0_8.index t a * S4x128x128.size a + S4x128x128.size a := by
  show i ∈ ((View.whole main_v0).slice (win0_8.rect t)).set ↔ _
  rw [View.set_slice_whole, Rect.mem_set_unit]
  exact Iff.rfl

/-- Every index of the result lies in the block of the point (i₀ / 4, i₁ / 128, i₂ / 128). -/
theorem cover (i : S16x512x512.Idx) :
    ∃ t : Fin cfg0.N, (cfg0.win 8).flush t = true ∧ i ∈ ((cfg0.win 8).blk t).view.set := by
  have hi0 : (i 0).val < 16 := (i 0).isLt
  have hi1 : (i 1).val < 512 := (i 1).isLt
  have hi2 : (i 2).val < 512 := (i 2).isLt
  obtain ⟨t, ht⟩ := idx_onto ⟨(i 0).val / 4, by omega⟩ ⟨(i 1).val / 128, by omega⟩ ⟨(i 2).val / 128, by omega⟩
  have q0 : win0_8.index t (0 : Fin 3) = (i 0).val / 4 := congrFun ht 0
  have q1 : win0_8.index t (1 : Fin 3) = (i 1).val / 128 := congrFun ht 1
  have q2 : win0_8.index t (2 : Fin 3) = (i 2).val / 128 := congrFun ht 2
  refine ⟨t, flush0_8 t, ?_⟩
  rw [mem_blk]
  intro a
  match a with
  | ⟨0, _⟩ => show win0_8.index t (0 : Fin 3) * 4 ≤ (i 0).val ∧ (i 0).val < win0_8.index t (0 : Fin 3) * 4 + 4; omega
  | ⟨1, _⟩ => show win0_8.index t (1 : Fin 3) * 128 ≤ (i 1).val ∧ (i 1).val < win0_8.index t (1 : Fin 3) * 128 + 128; omega
  | ⟨2, _⟩ => show win0_8.index t (2 : Fin 3) * 128 ≤ (i 2).val ∧ (i 2).val < win0_8.index t (2 : Fin 3) * 128 + 128; omega

/-- THE ARRAY after the launch is `whole`. -/
theorem final (c : Dev nD) : (dats m 0 c).arrAt 8 cfg0.N = whole m c :=
  (dats m 0 c).arrAt_eq_of_cover 8 (whole m c) (fun t _ => flushed_eq m c t) cover

end Cert.KernelIdeal.ArrayValue

end
-- ==== Proof.KernelRun.lean ====
/-
  The kernel program's run, with its result named.

  After the launch the program reshapes the 16 × 512 × 512 array to 1 × 16 × 512 × 512.  The launch leaves
  `ArrayValue.whole` in the array (`ArrayValue.final`); the reshape keeps every entry at its row-major position, and
  with a leading axis of extent one that position is unchanged, so the result is `PairBias.tableArr` of the
  arguments, which the run leaves as they were.
-/
import proofs.«400946_j78993038508266_3_alg».proof.Proof.KernelArray

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.PairBias Cert.KernelIdeal.Block

variable (m : (ℓ : Loc nD τ sig) → Buf (Elt Ideal) ℓ) (ρ : Dev nD → PrngReg)

/-- The result buffer is no window's array: the launch leaves it to the lines after it. -/
theorem result_mem : main_v1 ∈ Pipeline.restRefs sig (cfgs 0).spec := by decide

/-- What the line after the launch leaves in the result buffer: the launch's array, reshaped. -/
theorem tail_eq (c : Dev nD) :
    Pipeline.afterTail₀ cfgs (dats m) 0 (V0 m) [hostOps1] c main_v1
      = shapeCast S1x16x512x512 (whole m c) shapeCasts_S16x512x512_S1x16x512x512 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = whole m c :=
    (Pipeline.withArrays_arr spec0 launch0.win.arr_inj c _ _ 8).trans (final m c)
  rw [e]
  rfl

/-- The reshape only adds a leading axis of extent one: entry (0, ch, i, j) is entry (ch, i, j). -/
theorem reshaped (c : Dev nD) :
    shapeCast S1x16x512x512 (whole m c) shapeCasts_S16x512x512_S1x16x512x512
      = tableArr (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7)) := by
  funext y
  have h0 : (y 0).val < 1 := (y 0).isLt
  refine (shapeCast_apply (whole m c) shapeCasts_S16x512x512_S1x16x512x512 y (ix3 (y 1) (y 2) (y 3))
    (by rw [Shape.rowMajor_val_three, Shape.rowMajor_val_four]
        show ((y 1).val * 512 + (y 2).val) * 512 + (y 3).val
          = (((y 0).val * 16 + (y 1).val) * 512 + (y 2).val) * 512 + (y 3).val
        omega)).trans ?_
  rfl

/-- THE RUN: every weakly fair execution terminates with the result at `tableArr` of the arguments and the arguments
    unchanged. -/
theorem run : θ_run defs (onTc (τ := τ) (main (F := Ideal))) ⟨m, fun _ => 0, ρ⟩ fun r => ∀ c : Dev nD,
      r.2.mem ((c.tc : Thread nD τ).loc main_v1) = tableArr (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).2 main_v1 result_mem).trans ((tail_eq m c).trans (reshaped m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.ArrayValue

end
-- ==== Proof.ReferenceArray.lean ====
/-
  The reference's result, as the same function of the argument arrays.

  The reference forms the four-axis array of coordinate differences query[i, c] − key[g, j, c] over (g, i, j, c) by
  broadcasting, takes sign · log (1 + |·|) entrywise, and applies the three layers as contractions of the last axis
  with the weight matrices, each followed by the broadcast bias (and the rectifier max · 0 after the first two).  The
  result over (g, i, j, o) is reshaped to (1, g, i, j, o), transposed to (1, g, o, i, j) and reshaped to
  (1, g·4 + o, i, j).  Read at an entry (0, ch, i, j), stage by stage, this is `PairBias.table` at (ch, i, j) with
  g = ch / 4 and o = ch % 4: the same sums of the same products in the same order, so no law of arithmetic is used.
-/
import proofs.«400946_j78993038508266_3_alg».proof.Proof.Gen.ReferenceIdeal.Read
import proofs.«400946_j78993038508266_3_alg».proof.Proof.PairBias

noncomputable section

namespace Cert.ReferenceIdeal.RefValue

open Cert.ReferenceIdeal Cert.ReferenceIdeal.Gen Cert.ReferenceIdeal.Read Idealize.ShloMosaic Idealize.ShloMosaic.ValueIdx
open Cert.PairBias

variable (x0 : (⟨S512x3, .f32⟩ : BufTy).Contents (Elt Ideal)) (x1 : (⟨S4x512x3, .f32⟩ : BufTy).Contents (Elt Ideal)) (x2 : (⟨S3x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal)) (x6 : (⟨S128x4, .f32⟩ : BufTy).Contents (Elt Ideal)) (x7 : (⟨S4, .f32⟩ : BufTy).Contents (Elt Ideal))

/-- The sign-log feature of coordinate `c` of the pair (query i, key j of group g). -/
theorem feature_apply (g : Fin 4) (i j : Fin 512) (c : Fin 3) :
    val_main_v9 (F := Ideal) x0 x1 (ix4 g i j c) = slog (x0 (ix2 i c) - x1 (ix3 g j c)) := by
  have hq : idx_main_v0 (idx_main_v1 (idx_main_v3 (ix4 g i j c))) = ix2 i c :=
    funext fun a => Fin.ext (by match a with | ⟨0, _⟩ => rfl | ⟨1, _⟩ => rfl)
  have hk : idx_main_v2 (idx_main_v4 (ix4 g i j c)) = ix3 g j c :=
    funext fun a => Fin.ext (by match a with | ⟨0, _⟩ => rfl | ⟨1, _⟩ => rfl | ⟨2, _⟩ => rfl)
  rw [val_main_v9_apply, val_main_v6_apply, val_main_v8_apply, val_main_v7_apply, val_main_v5_apply, val_main_v3_apply,
    val_main_v1_apply, val_main_v0_apply, val_main_v4_apply, val_main_v2_apply, hq, hk]
  rfl

/-- The first layer at unit `d` of a pair. -/
theorem hidden1_apply (g : Fin 4) (i j : Fin 512) (d : Fin 128) :
    val_main_v14 (F := Ideal) x0 x1 x2 x3 (ix4 g i j d)
      = layer1 (fun c => slog (x0 (ix2 i c) - x1 (ix3 g j c))) (fun c d => x2 (ix2 c d)) (fun d => x3 (ix1 d)) d := by
  have hl : ∀ k : Fin 3, lidx_main_v10 (ix4 g i j d) k = ix4 g i j k := fun k =>
    funext fun a => Fin.ext (by match a with | ⟨0, _⟩ => rfl | ⟨1, _⟩ => rfl | ⟨2, _⟩ => rfl | ⟨3, _⟩ => rfl)
  have hr : ∀ k : Fin 3, ridx_main_v10 (ix4 g i j d) k = ix2 k d := fun k =>
    funext fun a => Fin.ext (by match a with | ⟨0, _⟩ => rfl | ⟨1, _⟩ => rfl)
  have hb : idx_main_v11 (idx_main_v12 (ix4 g i j d)) = ix1 d :=
    funext fun a => Fin.ext (by match a with | ⟨0, _⟩ => rfl)
  rw [val_main_v14_apply, val_main_v13_apply, val_main_v10_apply, val_main_v12_apply, val_main_v11_apply,
    val_main_call0_v0_apply, val_main_call0_cst_apply, hb]
  simp only [hl, hr, feature_apply]
  rfl

/-- The second layer at unit `e` of a pair. -/
theorem hidden2_apply (g : Fin 4) (i j : Fin 512) (e : Fin 128) :
    val_main_v19 (F := Ideal) x0 x1 x2 x3 x4 x5 (ix4 g i j e)
      = layer2 (layer1 (fun c => slog (x0 (ix2 i c) - x1 (ix3 g j c))) (fun c d => x2 (ix2 c d)) (fun d => x3 (ix1 d)))
          (fun d e => x4 (ix2 d e)) (fun e => x5 (ix1 e)) e := by
  have hl : ∀ k : Fin 128, lidx_main_v15 (ix4 g i j e) k = ix4 g i j k := fun k =>
    funext fun a => Fin.ext (by match a with | ⟨0, _⟩ => rfl | ⟨1, _⟩ => rfl | ⟨2, _⟩ => rfl | ⟨3, _⟩ => rfl)
  have hr : ∀ k : Fin 128, ridx_main_v15 (ix4 g i j e) k = ix2 k e := fun k =>
    funext fun a => Fin.ext (by match a with | ⟨0, _⟩ => rfl | ⟨1, _⟩ => rfl)
  have hb : idx_main_v16 (idx_main_v17 (ix4 g i j e)) = ix1 e :=
    funext fun a => Fin.ext (by match a with | ⟨0, _⟩ => rfl)
  rw [val_main_v19_apply, val_main_v18_apply, val_main_v15_apply, val_main_v17_apply, val_main_v16_apply,
    val_main_call1_v0_apply, val_main_call1_cst_apply, hb]
  simp only [hl, hr, hidden1_apply]
  rfl

/-- The output layer at channel `o` of a pair. -/
theorem output_apply (g : Fin 4) (i j : Fin 512) (o : Fin 4) :
    val_main_v23 (F := Ideal) x0 x1 x2 x3 x4 x5 x6 x7 (ix4 g i j o)
      = pair (fun c => x0 (ix2 i c)) (fun c => x1 (ix3 g j c)) (fun c d => x2 (ix2 c d)) (fun d => x3 (ix1 d))
          (fun d e => x4 (ix2 d e)) (fun e => x5 (ix1 e)) (fun e o => x6 (ix2 e o)) (fun o => x7 (ix1 o)) o := by
  have hl : ∀ k : Fin 128, lidx_main_v20 (ix4 g i j o) k = ix4 g i j k := fun k =>
    funext fun a => Fin.ext (by match a with | ⟨0, _⟩ => rfl | ⟨1, _⟩ => rfl | ⟨2, _⟩ => rfl | ⟨3, _⟩ => rfl)
  have hr : ∀ k : Fin 128, ridx_main_v20 (ix4 g i j o) k = ix2 k o := fun k =>
    funext fun a => Fin.ext (by match a with | ⟨0, _⟩ => rfl | ⟨1, _⟩ => rfl)
  have hb : idx_main_v21 (idx_main_v22 (ix4 g i j o)) = ix1 o :=
    funext fun a => Fin.ext (by match a with | ⟨0, _⟩ => rfl)
  rw [val_main_v23_apply, val_main_v20_apply, val_main_v22_apply, val_main_v21_apply, hb]
  simp only [hl, hr, hidden2_apply]
  rfl

/-! The row-major arithmetic of the three re-layouts, over plain numbers: position F = (ch · 512 + a) · 512 + b of the
    final array, taken apart as (F / 2²⁰ mod 4, F / 2¹⁸ mod 4, F / 512 mod 512, F mod 512) = (ch / 4, ch mod 4, a, b), is
    put together in the order (ch / 4, a, b, ch mod 4) and taken apart again. -/

theorem apart (z ch a b : Nat) (hz : z < 1) (hch : ch < 16) (ha : a < 512) (hb : b < 512) :
    (((z * 16 + ch) * 512 + a) * 512 + b) / 1048576 % 4 = ch / 4 ∧ (((z * 16 + ch) * 512 + a) * 512 + b) / 262144 % 4 = ch % 4 ∧ (((z * 16 + ch) * 512 + a) * 512 + b) / 512 % 512 = a ∧ (((z * 16 + ch) * 512 + a) * 512 + b) % 512 = b := by
  refine ⟨by omega, by omega, by omega, by omega⟩

theorem together (u a b r : Nat) (hu : u < 4) (ha : a < 512) (hb : b < 512) (hr : r < 4) :
    ((((0 * 4 + u) * 512 + a) * 512 + b) * 4 + r) / 1048576 = u
    ∧ ((((0 * 4 + u) * 512 + a) * 512 + b) * 4 + r) / 2048 % 512 = a
    ∧ ((((0 * 4 + u) * 512 + a) * 512 + b) * 4 + r) / 4 % 512 = b
    ∧ ((((0 * 4 + u) * 512 + a) * 512 + b) * 4 + r) % 4 = r := by
  refine ⟨by omega, by omega, by omega, by omega⟩

theorem relayout_nat (z ch a b : Nat) (hz : z < 1) (hch : ch < 16) (ha : a < 512) (hb : b < 512) :
    (((((0 * 4 + (((z * 16 + ch) * 512 + a) * 512 + b) / 1048576 % 4) * 512 + (((z * 16 + ch) * 512 + a) * 512 + b) / 512 % 512) * 512 + (((z * 16 + ch) * 512 + a) * 512 + b) % 512) * 4 + (((z * 16 + ch) * 512 + a) * 512 + b) / 262144 % 4) / 1048576) = ch / 4
    ∧ (((((0 * 4 + (((z * 16 + ch) * 512 + a) * 512 + b) / 1048576 % 4) * 512 + (((z * 16 + ch) * 512 + a) * 512 + b) / 512 % 512) * 512 + (((z * 16 + ch) * 512 + a) * 512 + b) % 512) * 4 + (((z * 16 + ch) * 512 + a) * 512 + b) / 262144 % 4) / 2048 % 512) = a
    ∧ (((((0 * 4 + (((z * 16 + ch) * 512 + a) * 512 + b) / 1048576 % 4) * 512 + (((z * 16 + ch) * 512 + a) * 512 + b) / 512 % 512) * 512 + (((z * 16 + ch) * 512 + a) * 512 + b) % 512) * 4 + (((z * 16 + ch) * 512 + a) * 512 + b) / 262144 % 4) / 4 % 512) = b
    ∧ (((((0 * 4 + (((z * 16 + ch) * 512 + a) * 512 + b) / 1048576 % 4) * 512 + (((z * 16 + ch) * 512 + a) * 512 + b) / 512 % 512) * 512 + (((z * 16 + ch) * 512 + a) * 512 + b) % 512) * 4 + (((z * 16 + ch) * 512 + a) * 512 + b) / 262144 % 4) % 4) = ch % 4 := by
  obtain ⟨e1, e2, e3, e4⟩ := apart z ch a b hz hch ha hb
  rw [e1, e2, e3, e4]
  exact together (ch / 4) a b (ch % 4) (by omega) ha hb (Nat.mod_lt _ (by decide))

/-- Through the reshape, the transpose and the reshape, entry (0, ch, i, j) of the result reads the layers' output at
    (ch / 4, i, j, ch % 4). -/
theorem relayout_idx (y : S1x16x512x512.Idx) :
    idx_main_v24 (idx_main_v25 (idx_main_v26 y))
      = ix4 (⟨(y 1).val / 4, by have h : (y 1).val < 16 := (y 1).isLt; omega⟩ : Fin 4)
          (⟨(y 2).val, (y 2).isLt⟩ : Fin 512) (⟨(y 3).val, (y 3).isLt⟩ : Fin 512)
          (⟨(y 1).val % 4, Nat.mod_lt _ (by decide)⟩ : Fin 4) := by
  obtain ⟨r0, r1, r2, r3⟩ := relayout_nat (y 0).val (y 1).val (y 2).val (y 3).val (y 0).isLt (y 1).isLt (y 2).isLt (y 3).isLt
  funext a
  apply Fin.ext
  match a with
  | ⟨0, _⟩ => exact r0
  | ⟨1, _⟩ => exact r1
  | ⟨2, _⟩ => exact r2
  | ⟨3, _⟩ => exact r3

/-- THE REFERENCE'S RESULT is `PairBias.tableArr` of the argument arrays. -/
theorem result_eq : val_main_v26 (F := Ideal) x0 x1 x2 x3 x4 x5 x6 x7 = tableArr x0 x1 x2 x3 x4 x5 x6 x7 := by
  funext y
  rw [val_main_v26_apply, val_main_v25_apply, val_main_v24_apply, relayout_idx]
  exact output_apply x0 x1 x2 x3 x4 x5 x6 x7 _ _ _ _

end Cert.ReferenceIdeal.RefValue

end
-- ==== Proof.lean ====
/-
  A pairwise positional bias: for every group g, query point i, key point j and channel o, a three-layer perceptron
  (3 → 128 → 128 → 4, rectifiers after the first two layers) of the sign-log transform of the three coordinate
  differences query[i, ·] − key[g, j, ·], written to entry (0, g·4 + o, i, j).

  The kernel computes it tile by tile over a 4 × 4 × 4 grid, with the pairs of a tile flattened to one axis of 16384
  and the layers as three matrix products; the reference computes it over the whole four-axis array of pairs with
  contractions of the last axis and re-lays the result out.  Over the extended reals both are `PairBias.tableArr` of
  the arguments: the kernel by `KernelIdeal.ArrayValue.run`, the reference by `ReferenceIdeal.RefValue.result_eq`
  over its run.  The two arrangements use the same sums of the same products (the last layer's factors exchanged, by
  commutativity), so the finiteness of the inputs is never used.  The kernel's sign, written on the chip by the sign
  bit, is idealized three times by the sign-bit rule, whose statements are the `preserves` conjuncts.
-/
import proofs.«400946_j78993038508266_3_alg».proof.Defs
import proofs.«400946_j78993038508266_3_alg».proof.Proof.Gen.Kernel
import proofs.«400946_j78993038508266_3_alg».proof.Proof.Gen.Kernel.Skeleton
import proofs.«400946_j78993038508266_3_alg».proof.Proof.Gen.Kernel.Launch
import proofs.«400946_j78993038508266_3_alg».proof.Proof.Gen.Kernel.Points
import proofs.«400946_j78993038508266_3_alg».proof.Proof.Gen.Kernel.Frame
import proofs.«400946_j78993038508266_3_alg».proof.Proof.Gen.KernelIdeal
import proofs.«400946_j78993038508266_3_alg».proof.Proof.Gen.KernelIdeal.Skeleton
import proofs.«400946_j78993038508266_3_alg».proof.Proof.Gen.KernelIdeal.Launch
import proofs.«400946_j78993038508266_3_alg».proof.Proof.Gen.KernelIdeal.Points
import proofs.«400946_j78993038508266_3_alg».proof.Proof.Gen.KernelIdeal.Frame
import proofs.«400946_j78993038508266_3_alg».proof.Proof.Gen.ReferenceIdeal
import proofs.«400946_j78993038508266_3_alg».proof.Proof.Gen.ReferenceIdeal.Run
import proofs.«400946_j78993038508266_3_alg».proof.Proof.Gen.ReferenceIdeal.Read
import proofs.«400946_j78993038508266_3_alg».proof.Proof.Gen.Pre_finite_inputs
import Idealize.ShloMosaic.Adequacy
import Idealize.ShloMosaic.Init

import proofs.«400946_j78993038508266_3_alg».proof.Proof.KernelRun
import proofs.«400946_j78993038508266_3_alg».proof.Proof.ReferenceArray

noncomputable section

namespace Cert.Proof

open Idealize.ShloMosaic Idealize.SL.Sem

/-- The word-level kernel terminates without a fault and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The three places where the kernel reads a difference plane's sign bit, each replaced by ±1 by the order. -/
theorem preserves : Cert.preserves_Kernel_KernelIdeal :=
  ⟨IdealRules.sign_bit.statement Cert.KernelIdeal.S128x128 .f32, IdealRules.sign_bit.statement Cert.KernelIdeal.S128x128 .f32,
    IdealRules.sign_bit.statement Cert.KernelIdeal.S128x128 .f32⟩

/-- From memories that agree on the arguments both programs end with the result at `tableArr` of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq _ _ _ _ _ _ _ _).trans ?_
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
